-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x6 : Shape := ⟨3, ![2, 4096, 6]⟩
abbrev S2048x6 : Shape := ⟨2, ![2048, 6]⟩
abbrev S_ : Shape := ⟨0, ![]⟩

class Facts : Prop where
  bcast_S_S2x4096x6 : S_.BroadcastsInDim S2x4096x6 (![] : Fin 0 → Fin S2x4096x6.rank)
  reducesTo_S2x4096x6_S_d0_1_2 : S2x4096x6.ReducesTo [0, 1, 2] S_
  h_S_ : 0 < S_.numel
  bcast_S_S2048x6 : S_.BroadcastsInDim S2048x6 (![] : Fin 0 → Fin S2048x6.rank)
  reducesTo_S2048x6_S_d0_1 : S2048x6.ReducesTo [0, 1] S_

variable [Facts]

def fn {F : FTy → Type} [FloatOps F] (main_arg0 : FVec F S2x4096x6 .f32) (main_arg1 : FVec F S2048x6 .f32) : IVec S_ 1 :=
  let main_v0 : FVec F S2x4096x6 .f32 := Host.absf main_arg0
  let main_cst : FVec F S_ .f32 := constant S_ .f32 0x7F800000#32
  let main_v1 : FVec F S2x4096x6 .f32 := broadcastInDim S2x4096x6 ![] bcast_S_S2x4096x6 main_cst
  let main_v2 : IVec S2x4096x6 1 := cmpf .olt main_v0 main_v1
  let main_c : IVec S_ 1 := constantI S_ 1 1#1
  let main_v3 : IVec S_ 1 := (fun x v => Host.reduce IntOp.andi x v reducesTo_S2x4096x6_S_d0_1_2 h_S_) main_v2 main_c
  let main_v4 : FVec F S2048x6 .f32 := Host.absf main_arg1
  let main_cst_0 : FVec F S_ .f32 := constant S_ .f32 0x7F800000#32
  let main_v5 : FVec F S2048x6 .f32 := broadcastInDim S2048x6 ![] bcast_S_S2048x6 main_cst_0
  let main_v6 : IVec S2048x6 1 := cmpf .olt main_v4 main_v5
  let main_c_1 : IVec S_ 1 := constantI S_ 1 1#1
  let main_v7 : IVec S_ 1 := (fun x v => Host.reduce IntOp.andi x v reducesTo_S2048x6_S_d0_1 h_S_) main_v6 main_c_1
  let main_v8 : IVec S_ 1 := andi main_v3 main_v7
  main_v8
-- ==== Kernel.lean ====
abbrev S2x4096x6 : Shape := ⟨3, ![2, 4096, 6]⟩
abbrev S2048x6 : Shape := ⟨2, ![2048, 6]⟩
abbrev S2x2048 : Shape := ⟨2, ![2, 2048]⟩
abbrev S2x512x6 : Shape := ⟨3, ![2, 512, 6]⟩
abbrev S256x6 : Shape := ⟨2, ![256, 6]⟩
abbrev S2x256 : Shape := ⟨2, ![2, 256]⟩
abbrev S1x256x1x6 : Shape := ⟨4, ![1, 256, 1, 6]⟩
abbrev S2x1x512x6 : Shape := ⟨4, ![2, 1, 512, 6]⟩
abbrev S2x256x512x6 : Shape := ⟨4, ![2, 256, 512, 6]⟩
abbrev S2x256x512 : Shape := ⟨3, ![2, 256, 512]⟩
abbrev S2048x2 : Shape := ⟨2, ![2048, 2]⟩
abbrev S_ : Shape := ⟨0, ![]⟩
abbrev S2 : Shape := ⟨1, ![2]⟩
abbrev S1x2 : Shape := ⟨2, ![1, 2]⟩
abbrev S1x2048x2 : Shape := ⟨3, ![1, 2048, 2]⟩

abbrev nBuf : Space → Nat
  | .hbm => 10
  | .vmem => 7
  | .smem => 0
  | _ => 0

abbrev bufTy : (tb : Table) → Fin (tcTables nBuf tb) → BufTy
  | .hbm, ⟨0, _⟩ => ⟨S2x4096x6, .f32⟩
  | .hbm, ⟨1, _⟩ => ⟨S2048x6, .f32⟩
  | .hbm, ⟨2, _⟩ => ⟨S2x2048, .f32⟩
  | .hbm, ⟨3, _⟩ => ⟨S2048x2, .f32⟩
  | .hbm, ⟨4, _⟩ => ⟨S_, .f32⟩
  | .hbm, ⟨5, _⟩ => ⟨S2, .f32⟩
  | .hbm, ⟨6, _⟩ => ⟨S1x2, .f32⟩
  | .hbm, ⟨7, _⟩ => ⟨S2048x2, .f32⟩
  | .hbm, ⟨8, _⟩ => ⟨S2048x2, .f32⟩
  | .hbm, ⟨9, _⟩ => ⟨S1x2048x2, .f32⟩
  | .local _ .vmem, ⟨0, _⟩ => ⟨S2x512x6, .f32⟩
  | .local _ .vmem, ⟨1, _⟩ => ⟨S2x512x6, .f32⟩
  | .local _ .vmem, ⟨2, _⟩ => ⟨S256x6, .f32⟩
  | .local _ .vmem, ⟨3, _⟩ => ⟨S256x6, .f32⟩
  | .local _ .vmem, ⟨4, _⟩ => ⟨S2x256, .f32⟩
  | .local _ .vmem, ⟨5, _⟩ => ⟨S2x256, .f32⟩
  | .local _ .vmem, ⟨6, _⟩ => ⟨S2x256, .f32⟩
  | _, _ => ⟨S2x4096x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v21 : BitVec 1 := Scalar.cmpi .eq arg1 c7_i32
  let v22 : BitVec 32 := Scalar.extui v21
  let c0_i32_11 : BitVec 32 := 0#32
  let v23 : BitVec 1 := Scalar.cmpi .ne v22 c0_i32_11
  v23

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2x512x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x6 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S2x256_S2x256_0_0 : ∀ a, (![0, 0] : Fin 2 → Nat) a + S2x256.size a ≤ S2x256.size a
  h_S2x256 : 0 < S2x256.numel
  shapeCasts_S2x256_S2x256 : S2x256.ShapeCasts S2x256
  inb_S256x6_S256x6_0_0 : ∀ a, (![0, 0] : Fin 2 → Nat) a + S256x6.size a ≤ S256x6.size a
  h_S256x6 : 0 < S256x6.numel
  inb_S2x512x6_S2x512x6_0_0_0 : ∀ a, (![0, 0, 0] : Fin 3 → Nat) a + S2x512x6.size a ≤ S2x512x6.size a
  h_S2x512x6 : 0 < S2x512x6.numel
  shapeCasts_S256x6_S1x256x1x6 : S256x6.ShapeCasts S1x256x1x6
  shapeCasts_S2x512x6_S2x1x512x6 : S2x512x6.ShapeCasts S2x1x512x6
  broadcasts_S1x256x1x6_S2x256x512x6 : S1x256x1x6.Broadcasts S2x256x512x6
  broadcasts_S2x1x512x6_S2x256x512x6 : S2x1x512x6.Broadcasts S2x256x512x6
  reduces_S2x256x512x6_S2x256x512 : S2x256x512x6.Reduces [3] S2x256x512
  reduces_S2x256x512_S2x256 : S2x256x512.Reduces [2] S2x256
  transposes_S2x2048_S2048x2_1_0 : S2x2048.Transposes [1, 0] S2048x2
  reducesTo_S2048x2_S2_d0 : S2048x2.ReducesTo [0] S2
  h_S_ : 0 < S_.numel
  bcast_S2_S1x2_1 : S2.BroadcastsInDim S1x2 (![1] : Fin 1 → Fin S1x2.rank)
  bcast_S1x2_S2048x2_0_1 : S1x2.BroadcastsInDim S2048x2 (![0, 1] : Fin 2 → Fin S2048x2.rank)
  bcast_S2048x2_S1x2048x2_1_2 : S2048x2.BroadcastsInDim S1x2048x2 (![1, 2] : Fin 2 → Fin S1x2048x2.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x512x6.size a ≤ S2x4096x6.size a
  hwx0_0 : ∀ i : grid0.Coords, EltTy.bits .f32 = 32 ∨ (Rect.block (s := S2x4096x6) S2x512x6.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x6.size a ≤ S2048x6.size a
  hwx0_1 : ∀ i : grid0.Coords, EltTy.bits .f32 = 32 ∨ (Rect.block (s := S2048x6) S256x6.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x256.size a ≤ S2x2048.size a
  hwx0_2 : ∀ i : grid0.Coords, EltTy.bits .f32 = 32 ∨ (Rect.block (s := S2x2048) S2x256.size (cc0_transform_2 i) (hinb0_2 i)).WholeWords (EltTy.packing .f32)

variable [Facts₀]

abbrev win0_0 : Pipeline.Window sig grid0 :=
  Pipeline.Window.ofSpec (Memref.whole main_arg0) S2x512x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x6.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S2x4096x6 : Shape := ⟨3, ![2, 4096, 6]⟩
abbrev S2048x6 : Shape := ⟨2, ![2048, 6]⟩
abbrev S1x2x4096x6 : Shape := ⟨4, ![1, 2, 4096, 6]⟩
abbrev S2048x1x1x6 : Shape := ⟨4, ![2048, 1, 1, 6]⟩
abbrev S2048x2x4096x6 : Shape := ⟨4, ![2048, 2, 4096, 6]⟩
abbrev S_ : Shape := ⟨0, ![]⟩
abbrev S2048x2x4096 : Shape := ⟨3, ![2048, 2, 4096]⟩
abbrev S2048x2 : Shape := ⟨2, ![2048, 2]⟩
abbrev S2 : Shape := ⟨1, ![2]⟩
abbrev S1x1x2 : Shape := ⟨3, ![1, 1, 2]⟩
abbrev S1x2048x2 : Shape := ⟨3, ![1, 2048, 2]⟩

abbrev nBuf : Space → Nat
  | .hbm => 23
  | .vmem => 0
  | .smem => 0
  | _ => 0

abbrev bufTy : (tb : Table) → Fin (tcTables nBuf tb) → BufTy
  | .hbm, ⟨0, _⟩ => ⟨S2x4096x6, .f32⟩
  | .hbm, ⟨1, _⟩ => ⟨S2048x6, .f32⟩
  | .hbm, ⟨2, _⟩ => ⟨S1x2x4096x6, .f32⟩
  | .hbm, ⟨3, _⟩ => ⟨S2048x1x1x6, .f32⟩
  | .hbm, ⟨4, _⟩ => ⟨S2048x2x4096x6, .f32⟩
  | .hbm, ⟨5, _⟩ => ⟨S2048x2x4096x6, .f32⟩
  | .hbm, ⟨6, _⟩ => ⟨S2048x2x4096x6, .f32⟩
  | .hbm, ⟨7, _⟩ => ⟨S2048x2x4096x6, .f32⟩
  | .hbm, ⟨8, _⟩ => ⟨S_, .f32⟩
  | .hbm, ⟨9, _⟩ => ⟨S2048x2x4096, .f32⟩
  | .hbm, ⟨10, _⟩ => ⟨S2048x2x4096, .f32⟩
  | .hbm, ⟨11, _⟩ => ⟨S_, .f32⟩
  | .hbm, ⟨12, _⟩ => ⟨S2048x2x4096, .f32⟩
  | .hbm, ⟨13, _⟩ => ⟨S2048x2x4096, .f32⟩
  | .hbm, ⟨14, _⟩ => ⟨S2048x2x4096, .f32⟩
  | .hbm, ⟨15, _⟩ => ⟨S_, .f32⟩
  | .hbm, ⟨16, _⟩ => ⟨S2048x2, .f32⟩
  | .hbm, ⟨17, _⟩ => ⟨S_, .f32⟩
  | .hbm, ⟨18, _⟩ => ⟨S2, .f32⟩
  | .hbm, ⟨19, _⟩ => ⟨S1x1x2, .f32⟩
  | .hbm, ⟨20, _⟩ => ⟨S1x2048x2, .f32⟩
  | .hbm, ⟨21, _⟩ => ⟨S1x2048x2, .f32⟩
  | .hbm, ⟨22, _⟩ => ⟨S1x2048x2, .f32⟩
  | _, _ => ⟨S2x4096x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]

class Facts₀ : Prop where
  bcast_S2x4096x6_S1x2x4096x6_1_2_3 : S2x4096x6.BroadcastsInDim S1x2x4096x6 (![1, 2, 3] : Fin 3 → Fin S1x2x4096x6.rank)
  bcast_S2048x6_S2048x1x1x6_0_3 : S2048x6.BroadcastsInDim S2048x1x1x6 (![0, 3] : Fin 2 → Fin S2048x1x1x6.rank)
  bcast_S1x2x4096x6_S2048x2x4096x6_0_1_2_3 : S1x2x4096x6.BroadcastsInDim S2048x2x4096x6 (![0, 1, 2, 3] : Fin 4 → Fin S2048x2x4096x6.rank)
  bcast_S2048x1x1x6_S2048x2x4096x6_0_1_2_3 : S2048x1x1x6.BroadcastsInDim S2048x2x4096x6 (![0, 1, 2, 3] : Fin 4 → Fin S2048x2x4096x6.rank)
  reducesTo_S2048x2x4096x6_S2048x2x4096_d3 : S2048x2x4096x6.ReducesTo [3] S2048x2x4096
  h_S_ : 0 < S_.numel
  bcast_S_S2048x2x4096 : S_.BroadcastsInDim S2048x2x4096 (![] : Fin 0 → Fin S2048x2x4096.rank)
  reducesTo_S2048x2x4096_S2048x2_d2 : S2048x2x4096.ReducesTo [2] S2048x2
  reducesTo_S2048x2_S2_d0 : S2048x2.ReducesTo [0] S2
  shapeCasts_S2_S1x1x2 : S2.ShapeCasts S1x1x2
  bcast_S2048x2_S1x2048x2_1_2 : S2048x2.BroadcastsInDim S1x2048x2 (![1, 2] : Fin 2 → Fin S1x2048x2.rank)
  bcast_S1x1x2_S1x2048x2_0_1_2 : S1x1x2.BroadcastsInDim S1x2048x2 (![0, 1, 2] : Fin 3 → Fin S1x2048x2.rank)

variable [Facts₀]

class Facts : Prop extends Facts₀ where

variable [Facts]
-- ==== Proof.Scalars.lean ====
/-
  The arithmetic the two programs share, on the extended reals.

  Both programs compute, for a location `l` and a batch `b`, the Gaussian kernel density
  `∑ₙ exp (-2 · ∑_d (s[b,n,d] - loc[l,d])²)` and divide it by its sum over the locations. They differ in the
  sign of the difference under the square, in how the factor `-2` is spelled (a product with `-2` against a
  negation followed by a quotient by `1/2`) and in how the sum over the 4096 samples is grouped (eight blocks of
  512 added one after the other against one sum). This module holds the float literals' values and the two
  scalar laws; none of them needs finiteness.
-/
import Idealize.ShloMosaic.PureOps.Ideal
import Idealize.ShloMosaic.PureOps.Ideal.Laws

noncomputable section

namespace Cert.Kde

open Idealize.ShloMosaic

/-- The word `0xC0000000` denotes the real `-2`. -/
theorem ofBits_neg_two : Ideal.ofBits .f32 0xC0000000#32 = ((-2 : ℝ) : EReal) := by
  simp [Ideal.ofBits, Ideal.ieee, -EReal.coe_mul]; norm_num

/-- The word `0x3F000000` denotes the real `1/2`. -/
theorem ofBits_half : Ideal.ofBits .f32 0x3F000000#32 = ((1 / 2 : ℝ) : EReal) := by
  simp [Ideal.ofBits, Ideal.ieee, -EReal.coe_mul]; norm_num

/-- A square does not see the order of a difference, at the infinities either: when `a ≠ b` the two differences
    are each other's negatives, and when `a = b` they are the same term. -/
theorem sub_mul_self_comm (a b : EReal) : (a - b) * (a - b) = (b - a) * (b - a) := by
  by_cases h : a = b
  · subst h; rfl
  · have hbot : a ≠ ⊥ ∨ b ≠ ⊥ := by
      by_contra hc; rw [not_or, not_not, not_not] at hc; exact h (hc.1.trans hc.2.symm)
    have htop : a ≠ ⊤ ∨ b ≠ ⊤ := by
      by_contra hc; rw [not_or, not_not, not_not] at hc; exact h (hc.1.trans hc.2.symm)
    have e : b - a = -(a - b) := by
      rw [EReal.neg_sub hbot htop, sub_eq_add_neg, add_comm]
    rw [e, neg_mul_neg]

/-- Negating and dividing by `1/2` is multiplying by `-2`, on every extended real. -/
theorem neg_div_half (x : EReal) : Ideal.div (-x) ((1 / 2 : ℝ) : EReal) = x * ((-2 : ℝ) : EReal) := by
  rw [Ideal.div_coe (by norm_num : (1 / 2 : ℝ) ≠ 0)]
  rw [show (1 / (1 / 2) : ℝ) = 2 by norm_num, EReal.coe_neg, neg_mul, mul_neg]

end Cert.Kde

end
-- ==== Proof.Density.lean ====
/-
  The result both programs compute, as one function of the two argument arrays, on the extended reals.

  For a batch `b`, a sample `n` and a location `l` the weight is `exp (-2 · ∑_d (loc[l,d] - s[b,n,d])²)`; the density
  at `(b, l)` is the sum of the weights over the 4096 samples; the result at `(0, l, b)` is the density divided by its
  sum over the 2048 locations. The kernel adds the samples in eight blocks of 512, one block per grid step, so the
  density is also stated as the last of the prefix sums `prefixSum K` over the first `512 · K` samples, with the step
  from `K` to `K + 1` adding exactly block `K`.
-/
import Idealize.ShloMosaic.PureOps.Ideal
import Idealize.ShloMosaic.Lib.ValueIdx
import Mathlib.Algebra.BigOperators.Intervals

noncomputable section

namespace Cert.Kde

open Idealize.ShloMosaic Idealize.ShloMosaic.ValueIdx

/-- The samples' shape `[2, 4096, 6]`, the locations' `[2048, 6]` and the result's `[1, 2048, 2]`. -/
abbrev SSmp : Shape := ⟨3, ![2, 4096, 6]⟩
abbrev SLoc : Shape := ⟨2, ![2048, 6]⟩
abbrev SOut : Shape := ⟨3, ![1, 2048, 2]⟩

variable (s : SSmp.Idx → EReal) (loc : SLoc.Idx → EReal)

/-- The Gaussian weight of sample `(b, n)` at location `l`. -/
def weight (b : Fin 2) (n : Fin 4096) (l : Fin 2048) : EReal :=
  Ideal.exp ((∑ d : Fin 6, (loc (ix2 l d) - s (ix3 b n d)) * (loc (ix2 l d) - s (ix3 b n d))) * ((-2 : ℝ) : EReal))

/-- The density at `(b, l)`: the weights of all samples of batch `b`, summed. -/
def density (b : Fin 2) (l : Fin 2048) : EReal := ∑ n : Fin 4096, weight s loc b n l

/-- The result: the density over its sum along the locations. -/
def pdf : SOut.Idx → EReal := fun j =>
  Ideal.div (density s loc (j 2) (j 1)) (∑ l : Fin 2048, density s loc (j 2) l)

/-- The weight with the sample's number a natural, zero past the last sample. -/
def weightN (b : Fin 2) (x : ℕ) (l : Fin 2048) : EReal :=
  if h : x < 4096 then weight s loc b ⟨x, h⟩ l else 0

/-- The weights of the first `512 · K` samples, summed: what the accumulator holds after `K` blocks. -/
def prefixSum (K : ℕ) (b : Fin 2) (l : Fin 2048) : EReal :=
  ∑ x ∈ Finset.range (512 * K), weightN s loc b x l

theorem prefixSum_zero (b : Fin 2) (l : Fin 2048) : prefixSum s loc 0 b l = 0 := by
  unfold prefixSum; rw [Nat.mul_zero, Finset.range_zero, Finset.sum_empty]

/-- One more block: the prefix sum grows by the 512 weights of block `K`. -/
theorem prefixSum_succ (K : ℕ) (hK : K < 8) (b : Fin 2) (l : Fin 2048) :
    prefixSum s loc (K + 1) b l
      = prefixSum s loc K b l + ∑ k : Fin 512, weight s loc b ⟨512 * K + k.val, by have := k.isLt; omega⟩ l := by
  unfold prefixSum
  rw [Nat.mul_succ, Finset.sum_range_add]
  refine congrArg (_ + ·) ?_
  rw [Finset.sum_range]
  refine Finset.sum_congr rfl fun k _ => ?_
  unfold weightN
  rw [dif_pos (by have := k.isLt; omega)]

/-- After the eighth block the prefix sum is the density. -/
theorem prefixSum_eight (b : Fin 2) (l : Fin 2048) : prefixSum s loc 8 b l = density s loc b l := by
  unfold prefixSum density
  rw [show 512 * 8 = 4096 from rfl, Finset.sum_range]
  refine Finset.sum_congr rfl fun n _ => ?_
  unfold weightN
  rw [dif_pos n.isLt]

end Cert.Kde

end
-- ==== Proof.RefValue.lean ====
/-
  The reference's result is the normalised density.

  Read one operation at a time, the reference's element at `(l, b, n)` before its sum over the samples is
  `exp (-(∑_d (s[b,n,d] - loc[l,d])²) / (1/2))`: the difference under the square taken the other way round and the
  factor `-2` spelled as a negation and a quotient, which the two scalar laws turn into the weight. Its sum over `n`
  is the density, the sum of that over `l` the normaliser, and the last quotient reads both at `(l, b)` and `b`.
-/
import proofs.«139698_j22952305230422_1_alg».proof.Proof.Gen.ReferenceIdeal.Read
import proofs.«139698_j22952305230422_1_alg».proof.Proof.Scalars
import proofs.«139698_j22952305230422_1_alg».proof.Proof.Density

noncomputable section

namespace Cert.ReferenceIdeal.RefValue

open Cert.ReferenceIdeal Cert.ReferenceIdeal.Gen Cert.ReferenceIdeal.Read
open Idealize.ShloMosaic Idealize.ShloMosaic.ValueIdx

variable (x0 : (⟨S2x4096x6, .f32⟩ : BufTy).Contents (Elt Ideal)) (x1 : (⟨S2048x6, .f32⟩ : BufTy).Contents (Elt Ideal))

/-- Where the two broadcasts and the sum over `d` read the arguments: the sample at `(b, n, d)`, -/
theorem smp_idx (l : Fin 2048) (b : Fin 2) (n : Fin 4096) (d : Fin 6) :
    idx_main_v0 (idx_main_v2 (idx_main_v6 (ix3 l b n) d)) = ix3 b n d :=
  funext fun a => Fin.ext (by match a with | ⟨0, _⟩ => rfl | ⟨1, _⟩ => rfl | ⟨2, _⟩ => rfl)

/-- and the location at `(l, d)`. -/
theorem loc_idx (l : Fin 2048) (b : Fin 2) (n : Fin 4096) (d : Fin 6) :
    idx_main_v1 (idx_main_v3 (idx_main_v6 (ix3 l b n) d)) = ix2 l d :=
  funext fun a => Fin.ext (by match a with | ⟨0, _⟩ => rfl | ⟨1, _⟩ => rfl)

/-- The squared difference, with the reference's order of subtraction turned round. -/
theorem sq_apply (l : Fin 2048) (b : Fin 2) (n : Fin 4096) (d : Fin 6) :
    val_main_v5 (F := Ideal) x0 x1 (idx_main_v6 (ix3 l b n) d)
      = (x1 (ix2 l d) - x0 (ix3 b n d)) * (x1 (ix2 l d) - x0 (ix3 b n d)) := by
  rw [val_main_v5_apply, val_main_v4_apply, val_main_v2_apply, val_main_v0_apply, val_main_v3_apply, val_main_v1_apply,
    smp_idx, loc_idx]
  simp only [Ideal.mulf_def, Ideal.subf_def]
  exact Cert.Kde.sub_mul_self_comm _ _

/-- The exponential stage at `(l, b, n)` is the weight of sample `(b, n)` at location `l`. -/
theorem exp_apply (l : Fin 2048) (b : Fin 2) (n : Fin 4096) :
    val_main_v10 (F := Ideal) x0 x1 (ix3 l b n) = Cert.Kde.weight x0 x1 b n l := by
  rw [val_main_v10_apply, val_main_v9_apply, val_main_v7_apply, val_main_v8_apply, val_main_cst_0_apply, val_main_v6_apply,
    val_main_cst_apply]
  simp only [Ideal.hostUnary_exp_def, Ideal.hostDivf_def, Ideal.hostNegf_def, Ideal.negf_def, Ideal.ofBits_def,
    Cert.Kde.ofBits_half, Ideal.ofBits_zero_f32, zero_add, Cert.Kde.neg_div_half]
  unfold Cert.Kde.weight
  refine congrArg (fun x => Ideal.exp (x * ((-2 : ℝ) : EReal))) (Finset.sum_congr rfl fun d _ => ?_)
  exact sq_apply x0 x1 l b n d

/-- The sum over the samples at `(l, b)` is the density. -/
theorem dens_apply (l : Fin 2048) (b : Fin 2) :
    val_main_v11 (F := Ideal) x0 x1 (ix2 l b) = Cert.Kde.density x0 x1 b l := by
  rw [val_main_v11_apply, val_main_cst_1_apply]
  simp only [Ideal.ofBits_def, Ideal.ofBits_zero_f32, zero_add]
  unfold Cert.Kde.density
  refine Finset.sum_congr rfl fun n _ => ?_
  rw [show idx_main_v11 (ix2 l b) n = ix3 l b n from
    funext fun a => Fin.ext (by match a with | ⟨0, _⟩ => rfl | ⟨1, _⟩ => rfl | ⟨2, _⟩ => rfl)]
  exact exp_apply x0 x1 l b n

/-- The sum of the densities over the locations, at batch `b`. -/
theorem norm_apply (b : Fin 2) :
    val_main_v12 (F := Ideal) x0 x1 (ix1 b) = ∑ l : Fin 2048, Cert.Kde.density x0 x1 b l := by
  rw [val_main_v12_apply, val_main_cst_2_apply]
  simp only [Ideal.ofBits_def, Ideal.ofBits_zero_f32, zero_add]
  refine Finset.sum_congr rfl fun l _ => ?_
  rw [show idx_main_v12 (ix1 b) l = ix2 l b from
    funext fun a => Fin.ext (by match a with | ⟨0, _⟩ => rfl | ⟨1, _⟩ => rfl)]
  exact dens_apply x0 x1 l b

/-- The reference's result is the normalised density. -/
theorem result_eq : val_main_v16 (F := Ideal) x0 x1 = Cert.Kde.pdf x0 x1 := by
  funext j
  obtain ⟨z, l, b, rfl⟩ : ∃ (z : Fin 1) (l : Fin 2048) (b : Fin 2), j = ix3 z l b := ⟨j 0, j 1, j 2, eq_ix3 j⟩
  rw [val_main_v16_apply, val_main_v14_apply, val_main_v15_apply, val_main_v13_apply]
  rw [show idx_main_v14 (ix3 z l b) = ix2 l b from
    funext fun a => Fin.ext (by match a with | ⟨0, _⟩ => rfl | ⟨1, _⟩ => rfl)]
  rw [show idx_main_v13 (idx_main_v15 (ix3 z l b)) = ix1 b from
    funext fun a => Fin.ext (by match a with | ⟨0, _⟩ => (show (0 * 1 + 0) * 2 + b.val = b.val; omega))]
  rw [dens_apply, norm_apply]
  rfl

end Cert.ReferenceIdeal.RefValue

end
-- ==== Proof.Body.lean ====
/-
  The kernel body's arithmetic read at an index.

  At a grid step the body holds a block `locB` of 256 locations and a block `sB` of 512 samples per batch, and adds
  to the accumulator, at `(b, r)`, the sum over the block's samples `k` of
  `exp ((∑_d (locB[r,d] - sB[b,k,d])²) · (-2))`. The two shape casts only insert unit axes and the two broadcasts
  repeat along them, so at `(b, r, k, d)` the broadcast location block reads `locB[r,d]` and the broadcast sample
  block `sB[b,k,d]`; each of the two lane reductions is the plain sum over its axis.
-/
import proofs.«139698_j22952305230422_1_alg».proof.Proof.Gen.KernelIdeal.Skeleton
import proofs.«139698_j22952305230422_1_alg».proof.Proof.Scalars
import Idealize.ShloMosaic.Lib.ValueIdx
import Idealize.ShloMosaic.Lib.Pipeline.Value
import Idealize.ShloMosaic.PureOps.Ideal.Laws

noncomputable section

namespace Cert.KernelIdeal.Body

open Cert.KernelIdeal Cert.KernelIdeal.Gen
open Idealize.ShloMosaic Idealize.ShloMosaic.ValueIdx

/-- The sum over the coordinate axis `d`, at `(b, r, k)`. -/
theorem sum_d (src : FVec Ideal S2x256x512x6 .f32) (h : S2x256x512x6.Reduces [3] S2x256x512) (hφ : FKind.Formats .f32)
    (hacc : (0x00000000#32 : BitVec 32) = 0x00000000#32) (b : Fin 2) (r : Fin 256) (k : Fin 512) :
    multiReduction .add [3] S2x256x512 src 0x00000000#32 h hφ hacc (ix3 b r k) = ∑ d : Fin 6, src (ix4 b r k d) := by
  refine (Ideal.multiReduction_add_single src 0x00000000#32 h hφ hacc (ix3 b r k)).trans ?_
  refine Finset.sum_congr rfl fun d _ => congrArg src (funext fun a => Fin.ext ?_)
  match a with
  | ⟨0, _⟩ => rfl
  | ⟨1, _⟩ => rfl
  | ⟨2, _⟩ => rfl
  | ⟨3, _⟩ => rfl

/-- The sum over the block's samples `k`, at `(b, r)`. -/
theorem sum_k (src : FVec Ideal S2x256x512 .f32) (h : S2x256x512.Reduces [2] S2x256) (hφ : FKind.Formats .f32)
    (hacc : (0x00000000#32 : BitVec 32) = 0x00000000#32) (b : Fin 2) (r : Fin 256) :
    multiReduction .add [2] S2x256 src 0x00000000#32 h hφ hacc (ix2 b r) = ∑ k : Fin 512, src (ix3 b r k) := by
  refine (Ideal.multiReduction_add_single src 0x00000000#32 h hφ hacc (ix2 b r)).trans ?_
  refine Finset.sum_congr rfl fun k _ => congrArg src (funext fun a => Fin.ext ?_)
  match a with
  | ⟨0, _⟩ => rfl
  | ⟨1, _⟩ => rfl
  | ⟨2, _⟩ => rfl

/-- The location block with unit axes inserted and repeated over batches and samples reads `locB[r,d]`. -/
theorem loc_bcast (locB : FVec Ideal S256x6 .f32) (h1 : S256x6.ShapeCasts S1x256x1x6)
    (h2 : S1x256x1x6.Broadcasts S2x256x512x6) (b : Fin 2) (r : Fin 256) (k : Fin 512) (d : Fin 6) :
    broadcastTo S2x256x512x6 (shapeCast S1x256x1x6 locB h1) h2 (ix4 b r k d) = locB (ix2 r d) := by
  refine (broadcastTo_apply _ h2 (ix4 b r k d) (ix4 (0 : Fin 1) r (0 : Fin 1) d) (fun a => ?_)).trans ?_
  · match a with
    | ⟨0, _⟩ => show (0 : ℕ) = if (1 : ℕ) = 1 then 0 else b.val; rw [if_pos rfl]
    | ⟨1, _⟩ => show r.val = if (256 : ℕ) = 1 then 0 else r.val; rw [if_neg (by decide)]
    | ⟨2, _⟩ => show (0 : ℕ) = if (1 : ℕ) = 1 then 0 else k.val; rw [if_pos rfl]
    | ⟨3, _⟩ => show d.val = if (6 : ℕ) = 1 then 0 else d.val; rw [if_neg (by decide)]
  · refine shapeCast_apply locB h1 (ix4 (0 : Fin 1) r (0 : Fin 1) d) (ix2 r d) ?_
    rw [Shape.rowMajor_val_two, Shape.rowMajor_val_four]
    show r.val * 6 + d.val = (((0 : ℕ) * 256 + r.val) * 1 + 0) * 6 + d.val
    omega

/-- The sample block with a unit axis inserted and repeated over the locations reads `sB[b,k,d]`. -/
theorem smp_bcast (sB : FVec Ideal S2x512x6 .f32) (h1 : S2x512x6.ShapeCasts S2x1x512x6)
    (h2 : S2x1x512x6.Broadcasts S2x256x512x6) (b : Fin 2) (r : Fin 256) (k : Fin 512) (d : Fin 6) :
    broadcastTo S2x256x512x6 (shapeCast S2x1x512x6 sB h1) h2 (ix4 b r k d) = sB (ix3 b k d) := by
  refine (broadcastTo_apply _ h2 (ix4 b r k d) (ix4 b (0 : Fin 1) k d) (fun a => ?_)).trans ?_
  · match a with
    | ⟨0, _⟩ => show b.val = if (2 : ℕ) = 1 then 0 else b.val; rw [if_neg (by decide)]
    | ⟨1, _⟩ => show (0 : ℕ) = if (1 : ℕ) = 1 then 0 else r.val; rw [if_pos rfl]
    | ⟨2, _⟩ => show k.val = if (512 : ℕ) = 1 then 0 else k.val; rw [if_neg (by decide)]
    | ⟨3, _⟩ => show d.val = if (6 : ℕ) = 1 then 0 else d.val; rw [if_neg (by decide)]
  · refine shapeCast_apply sB h1 (ix4 b (0 : Fin 1) k d) (ix3 b k d) ?_
    rw [Shape.rowMajor_val_three, Shape.rowMajor_val_four]
    show (b.val * 512 + k.val) * 6 + d.val = ((b.val * 1 + 0) * 512 + k.val) * 6 + d.val
    omega

/-- The weight of the block's sample `k` of batch `b` at the block's location `r`. -/
def blockWeight (locB : FVec Ideal S256x6 .f32) (sB : FVec Ideal S2x512x6 .f32) (b : Fin 2) (r : Fin 256) (k : Fin 512) : EReal :=
  Ideal.exp ((∑ d : Fin 6, (locB (ix2 r d) - sB (ix3 b k d)) * (locB (ix2 r d) - sB (ix3 b k d))) * ((-2 : ℝ) : EReal))

/-- The zero block the first step of each row of the grid stores. -/
theorem pay1_apply (j : S2x256.Idx) : (k0_pay1 (F := Ideal)) j = 0 := by
  unfold k0_pay1
  rw [shapeCast_self]
  exact Ideal.ofBits_zero_f32

/-- The accumulating store's value at `(b, r)`: the accumulator there plus the block's weights summed. -/
theorem pay2_apply (locB : FVec Ideal S256x6 .f32) (sB : FVec Ideal S2x512x6 .f32) (acc : FVec Ideal S2x256 .f32)
    (b : Fin 2) (r : Fin 256) :
    k0_pay2 locB sB acc (ix2 b r) = acc (ix2 b r) + ∑ k : Fin 512, blockWeight locB sB b r k := by
  unfold k0_pay2
  rw [shapeCast_self]
  refine congrArg (acc (ix2 b r) + ·) ((sum_k _ _ _ _ b r).trans (Finset.sum_congr rfl fun k _ => ?_))
  unfold blockWeight
  refine (congrArg (fun x => Ideal.exp (x * Ideal.ofBits .f32 0xC0000000#32)) (sum_d _ _ _ _ b r k)).trans ?_
  rw [Cert.Kde.ofBits_neg_two]
  refine congrArg (fun x => Ideal.exp (x * ((-2 : ℝ) : EReal))) (Finset.sum_congr rfl fun d _ => ?_)
  show (broadcastTo S2x256x512x6 _ _ (ix4 b r k d) - broadcastTo S2x256x512x6 _ _ (ix4 b r k d))
      * (broadcastTo S2x256x512x6 _ _ (ix4 b r k d) - broadcastTo S2x256x512x6 _ _ (ix4 b r k d)) = _
  rw [loc_bcast, smp_bcast]

end Cert.KernelIdeal.Body

end
-- ==== Proof.Pieces.lean ====
/-
  What one grid step leaves in the accumulator and in the output block, as values.

  The body's stores all write whole `[2, 256]` buffers. In the first step of a row of the grid it stores the zero
  block into the accumulator, reads it back and stores the accumulating value over it; in the other steps it reads
  what the step before left and stores the accumulating value; in the last step of a row it also copies the
  accumulator, read back after that store, into the output block. So in every case the accumulator ends at the
  accumulating store's value of the two input blocks and of what it held before (the zero block in the first step),
  and in the last step the output block holds the same.
-/
import proofs.«139698_j22952305230422_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen
open Idealize.ShloMosaic Idealize.ShloMosaic.TcCoe Idealize.ShloMosaic.Tactic Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A middle step: the accumulator, found at `xs0`, ends at the accumulating value over `xs0`. -/
theorem acc_mid (c : Dev nD) (i : grid0.Coords) (arg2 : Memref sig .tc .vmem S2x512x6 .f32) (harg2 : arg2.IsWhole) (arg3 : Memref sig .tc .vmem S256x6 .f32) (harg3 : arg3.IsWhole) (arg4 : Memref sig .tc .vmem S2x256 .f32) (harg4 : arg4.IsWhole) (arg5 : Memref sig .tc .vmem S2x256 .f32) (harg5 : arg5.IsWhole) (hc0 : ¬cond0_0 i) (hc1 : ¬cond0_1 i)
    (x0 : Vec F S2x512x6 .f32) (x1 : Vec F S256x6 .f32) (xs0 : Vec F S2x256 .f32) :
    sout0_B_0 c i arg2 harg2 arg3 harg3 arg4 harg4 arg5 harg5 hc0 hc1 x0 x1 xs0 = k0_pay2 x1 x0 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero hz2]
  simp only [View.readAt_eq_ld, harg2.read_unread, harg3.read_unread, harg5.read_unread,
    View.ld_unit_zero (S := S2x256) hz2, View.ld_unit_zero (S := S256x6) hz2, View.ld_unit_zero (S := S2x512x6) hz3]

/-- The first step of a row: the accumulator ends at the accumulating value over the zero block it has just stored. -/
theorem acc_first (c : Dev nD) (i : grid0.Coords) (arg2 : Memref sig .tc .vmem S2x512x6 .f32) (harg2 : arg2.IsWhole) (arg3 : Memref sig .tc .vmem S256x6 .f32) (harg3 : arg3.IsWhole) (arg4 : Memref sig .tc .vmem S2x256 .f32) (harg4 : arg4.IsWhole) (arg5 : Memref sig .tc .vmem S2x256 .f32) (harg5 : arg5.IsWhole) (hc0 : cond0_0 i) (hc1 : ¬cond0_1 i)
    (x0 : Vec F S2x512x6 .f32) (x1 : Vec F S256x6 .f32) :
    sout0_A_0 c i arg2 harg2 arg3 harg3 arg4 harg4 arg5 harg5 hc0 hc1 x0 x1 = k0_pay2 x1 x0 (k0_pay1 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S2x256) hz2, View.readCov_unit_zero (S := S2x256) _ hz2]
  simp only [View.readAt_eq_ld, harg2.read_unread, harg3.read_unread,
    View.ld_unit_zero (S := S2x256) hz2, View.ld_unit_zero (S := S256x6) hz2, View.ld_unit_zero (S := S2x512x6) hz3]

/-- The last step of a row: the accumulator as in a middle step, -/
theorem acc_last (c : Dev nD) (i : grid0.Coords) (arg2 : Memref sig .tc .vmem S2x512x6 .f32) (harg2 : arg2.IsWhole) (arg3 : Memref sig .tc .vmem S256x6 .f32) (harg3 : arg3.IsWhole) (arg4 : Memref sig .tc .vmem S2x256 .f32) (harg4 : arg4.IsWhole) (arg5 : Memref sig .tc .vmem S2x256 .f32) (harg5 : arg5.IsWhole) (hc0 : ¬cond0_0 i) (hc1 : cond0_1 i)
    (x0 : Vec F S2x512x6 .f32) (x1 : Vec F S256x6 .f32) (xs0 : Vec F S2x256 .f32) :
    sout0_C_0 c i arg2 harg2 arg3 harg3 arg4 harg4 arg5 harg5 hc0 hc1 x0 x1 xs0 = k0_pay2 x1 x0 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz2]
  simp only [View.readAt_eq_ld, harg2.read_unread, harg3.read_unread, harg5.read_unread,
    View.ld_unit_zero (S := S2x256) hz2, View.ld_unit_zero (S := S256x6) hz2, View.ld_unit_zero (S := S2x512x6) hz3]

/-- and the output block a copy of it. -/
theorem out_last (c : Dev nD) (i : grid0.Coords) (arg2 : Memref sig .tc .vmem S2x512x6 .f32) (harg2 : arg2.IsWhole) (arg3 : Memref sig .tc .vmem S256x6 .f32) (harg3 : arg3.IsWhole) (arg4 : Memref sig .tc .vmem S2x256 .f32) (harg4 : arg4.IsWhole) (arg5 : Memref sig .tc .vmem S2x256 .f32) (harg5 : arg5.IsWhole) (hc0 : ¬cond0_0 i) (hc1 : cond0_1 i)
    (x0 : Vec F S2x512x6 .f32) (x1 : Vec F S256x6 .f32) (xs0 : Vec F S2x256 .f32) :
    out0_C_2 c i arg2 harg2 arg3 harg3 arg4 harg4 arg5 harg5 hc0 hc1 x0 x1 xs0 = k0_pay2 x1 x0 xs0 := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz2]
  simp only [View.readAt_eq_ld, harg2.read_unread, harg3.read_unread, harg5.read_unread,
    View.readCov_unit_zero (S := S2x256) _ hz2,
    View.ld_unit_zero (S := S2x256) hz2, View.ld_unit_zero (S := S256x6) hz2, View.ld_unit_zero (S := S2x512x6) hz3]

end Cert.KernelIdeal.Pieces

end
-- ==== Proof.Accum.lean ====
/-
  The accumulator after each grid step is a prefix sum of the weights.

  Grid step `t` (of 64, the sample axis running fastest) holds the samples `512 · (t mod 8) + k` and the locations
  `256 · (t div 8) + r`, so its accumulating store adds, at `(b, r)`, the weights of block `t mod 8` of the samples at
  location `256 · (t div 8) + r`. Starting from the zero block at the first step of each row of the grid, the
  accumulator after step `t` is therefore the prefix sum over the first `t mod 8 + 1` blocks: by induction on `t`.
-/
import proofs.«139698_j22952305230422_1_alg».proof.Proof.Gen.KernelIdeal.Frame
import proofs.«139698_j22952305230422_1_alg».proof.Proof.Body
import proofs.«139698_j22952305230422_1_alg».proof.Proof.Pieces
import proofs.«139698_j22952305230422_1_alg».proof.Proof.Density

noncomputable section

namespace Cert.KernelIdeal.Accum

open Cert.KernelIdeal Cert.KernelIdeal.Gen
open Idealize.ShloMosaic Idealize.ShloMosaic.TcCoe Idealize.SL.Sem Idealize.ShloMosaic.ValueIdx
open Cert.Kde (weight prefixSum density)

variable (m : (ℓ : Loc nD τ sig) → Buf (Elt Ideal) ℓ)

/-- The two argument arrays as the region finds them, and the two input blocks at a step, at their literal types. -/
abbrev sarr (c : Dev nD) : FVec Ideal S2x4096x6 .f32 := V m c main_arg0
abbrev larr (c : Dev nD) : FVec Ideal S2048x6 .f32 := V m c main_arg1
abbrev sblk (c : Dev nD) (t : Fin cfg0.N) : FVec Ideal S2x512x6 .f32 := iblk m c 0 t
abbrev lblk (c : Dev nD) (t : Fin cfg0.N) : FVec Ideal S256x6 .f32 := iblk m c 1 t

/-- The block indices of the three windows at step `t`: the sample block moves with `t mod 8`, the location block
    and the output block with `t div 8`. -/
theorem idx_facts : ∀ t : Fin cfg0.N,
    win0_0.index t (0 : Fin 3) = 0 ∧ win0_0.index t (1 : Fin 3) = t.val % 8 ∧ win0_0.index t (2 : Fin 3) = 0
    ∧ win0_1.index t (0 : Fin 2) = t.val / 8 ∧ win0_1.index t (1 : Fin 2) = 0
    ∧ win0_2.index t (0 : Fin 2) = 0 ∧ win0_2.index t (1 : Fin 2) = t.val / 8 :=
  (by decide +kernel : ∀ t : Fin grid0.N, _)

/-- The sample block at step `t` reads sample `512 · (t mod 8) + k`. -/
theorem sblk_apply (c : Dev nD) (t : Fin cfg0.N) (b : Fin 2) (k : Fin 512) (d : Fin 6) (n : Fin 4096)
    (hn : n.val = 512 * (t.val % 8) + k.val) : sblk m c t (ix3 b k d) = sarr m c (ix3 b n d) := by
  obtain ⟨e0, e1, e2, -⟩ := idx_facts t
  unfold sblk iblk
  rw [View.read_apply]
  show V m c main_arg0 _ = V m c main_arg0 _
  refine congrArg (V m c main_arg0) (funext fun a => Fin.ext ?_)
  match a with
  | ⟨0, _⟩ => show win0_0.index t (0 : Fin 3) * 2 + 1 * b.val = b.val; omega
  | ⟨1, _⟩ => show win0_0.index t (1 : Fin 3) * 512 + 1 * k.val = n.val; omega
  | ⟨2, _⟩ => show win0_0.index t (2 : Fin 3) * 6 + 1 * d.val = d.val; omega

/-- The location block at step `t` reads location `256 · (t div 8) + r`. -/
theorem lblk_apply (c : Dev nD) (t : Fin cfg0.N) (r : Fin 256) (d : Fin 6) (l : Fin 2048)
    (hl : l.val = 256 * (t.val / 8) + r.val) : lblk m c t (ix2 r d) = larr m c (ix2 l d) := by
  obtain ⟨-, -, -, e3, e4, -⟩ := idx_facts t
  unfold lblk iblk
  rw [View.read_apply]
  show V m c main_arg1 _ = V m c main_arg1 _
  refine congrArg (V m c main_arg1) (funext fun a => Fin.ext ?_)
  match a with
  | ⟨0, _⟩ => show win0_1.index t (0 : Fin 2) * 256 + 1 * r.val = l.val; omega
  | ⟨1, _⟩ => show win0_1.index t (1 : Fin 2) * 6 + 1 * d.val = d.val; omega

/-- So a block's weight is the weight of that sample at that location. -/
theorem blockWeight_eq (c : Dev nD) (t : Fin cfg0.N) (b : Fin 2) (r : Fin 256) (k : Fin 512) (n : Fin 4096) (l : Fin 2048)
    (hn : n.val = 512 * (t.val % 8) + k.val) (hl : l.val = 256 * (t.val / 8) + r.val) :
    Body.blockWeight (lblk m c t) (sblk m c t) b r k = weight (sarr m c) (larr m c) b n l := by
  unfold Body.blockWeight Cert.Kde.weight
  refine congrArg (fun x => Ideal.exp (x * ((-2 : ℝ) : EReal))) (Finset.sum_congr rfl fun d _ => ?_)
  rw [sblk_apply m c t b k d n hn, lblk_apply m c t r d l hl]

/-- One accumulating store: from the prefix sum over `K` blocks to the one over `K + 1`, when the blocks it holds are
    block `K` of the samples and the locations `l r`. -/
theorem step (S : FVec Ideal S2x4096x6 .f32) (L : FVec Ideal S2048x6 .f32) (locB : FVec Ideal S256x6 .f32)
    (sB : FVec Ideal S2x512x6 .f32) (acc : FVec Ideal S2x256 .f32) (K K' : ℕ) (hK : K < 8) (hK' : K' = K + 1)
    (l : Fin 256 → Fin 2048)
    (hw : ∀ b r k, Body.blockWeight locB sB b r k = weight S L b ⟨512 * K + k.val, by have := k.isLt; omega⟩ (l r))
    (hacc : ∀ b r, acc (ix2 b r) = prefixSum S L K b (l r)) (b : Fin 2) (r : Fin 256) :
    k0_pay2 (F := Ideal) locB sB acc (ix2 b r) = prefixSum S L K' b (l r) := by
  subst hK'
  rw [Body.pay2_apply, hacc, Cert.Kde.prefixSum_succ S L K hK]
  exact congrArg (_ + ·) (Finset.sum_congr rfl fun k _ => hw b r k)

/-- The location a step's row `r` stands for. -/
def rowOf (n : ℕ) (r : Fin 256) : Fin 2048 := ⟨256 * (n / 8 % 8) + r.val, by have := r.isLt; omega⟩

/-- What the accumulator holds after a step, case by case, as the accumulating store's value. -/
theorem accAt_first (c : Dev nD) (t : Fin cfg0.N) (h0 : t.val % 8 = 0) (h1 : ¬t.val % 8 = 7) :
    (outsAt0 m c t.val t.isLt).2 = k0_pay2 (F := Ideal) (lblk m c t) (sblk m c t) (k0_pay1 (F := Ideal)) := by
  rw [outsAt0_A m c t h0 h1]
  dsimp only
  exact Pieces.acc_first (F := Ideal) c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)

theorem accAt_mid (c : Dev nD) (t : Fin cfg0.N) (h0 : ¬t.val % 8 = 0) (h1 : ¬t.val % 8 = 7) :
    (outsAt0 m c t.val t.isLt).2
      = k0_pay2 (F := Ideal) (lblk m c t) (sblk m c t) (outsAt0 m c (t.val - 1) (Nat.lt_of_le_of_lt (Nat.sub_le _ _) t.isLt)).2 := by
  rw [outsAt0_B m c t h0 h1]
  dsimp only
  exact Pieces.acc_mid (F := Ideal) c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2

theorem accAt_last (c : Dev nD) (t : Fin cfg0.N) (h0 : ¬t.val % 8 = 0) (h1 : t.val % 8 = 7) :
    (outsAt0 m c t.val t.isLt).2
      = k0_pay2 (F := Ideal) (lblk m c t) (sblk m c t) (outsAt0 m c (t.val - 1) (Nat.lt_of_le_of_lt (Nat.sub_le _ _) t.isLt)).2 := by
  rw [outsAt0_C m c t h0 h1]
  dsimp only
  exact Pieces.acc_last (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2

/-- In the last step of a row the output block is the accumulator. -/
theorem outAt_last (c : Dev nD) (t : Fin cfg0.N) (h0 : ¬t.val % 8 = 0) (h1 : t.val % 8 = 7) :
    (outsAt0 m c t.val t.isLt).1 = (outsAt0 m c t.val t.isLt).2 := by
  rw [outsAt0_C m c t h0 h1]
  dsimp only
  exact (Pieces.out_last (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2).trans
    (Pieces.acc_last (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2).symm

/-- THE INVARIANT: after step `n` the accumulator holds, at `(b, r)`, the prefix sum over the first `n mod 8 + 1` blocks
    of the samples at the location row `r` stands for. -/
theorem acc_eq (c : Dev nD) : ∀ (n : ℕ) (hn : n < cfg0.N) (b : Fin 2) (r : Fin 256),
    (outsAt0 m c n hn).2 (ix2 b r) = prefixSum (sarr m c) (larr m c) (n % 8 + 1) b (rowOf n r)
  | 0, hn, b, r => by
    have e := accAt_first m c ⟨0, hn⟩ rfl (by show ¬(0 : ℕ) % 8 = 7; omega)
    refine (congrFun e (ix2 b r)).trans ?_
    refine step (sarr m c) (larr m c) (lblk m c ⟨0, hn⟩) (sblk m c ⟨0, hn⟩) (k0_pay1 (F := Ideal)) 0 (0 % 8 + 1)
      (by omega) rfl (rowOf 0) (fun b r k => blockWeight_eq m c ⟨0, hn⟩ b r k _ _
        (by show 512 * 0 + k.val = 512 * (0 % 8) + k.val; omega)
        (by show 256 * (0 / 8 % 8) + r.val = 256 * (0 / 8) + r.val; omega))
      (fun b r => (Body.pay1_apply _).trans (Cert.Kde.prefixSum_zero _ _ b _).symm) b r
  | n + 1, hn, b, r => by
    have hN : n + 1 < 64 := lt_of_lt_of_eq hn (show cfg0.N = 64 from N_0)
    have ih := acc_eq c n (Nat.lt_of_succ_lt hn)
    by_cases h0 : (n + 1) % 8 = 0
    · have h1 : ¬(n + 1) % 8 = 7 := by omega
      have e := accAt_first m c ⟨n + 1, hn⟩ h0 h1
      refine (congrFun e (ix2 b r)).trans ?_
      refine step (sarr m c) (larr m c) (lblk m c ⟨n + 1, hn⟩) (sblk m c ⟨n + 1, hn⟩) (k0_pay1 (F := Ideal)) 0 ((n + 1) % 8 + 1)
        (by omega) (by omega) (rowOf (n + 1))
        (fun b r k => blockWeight_eq m c ⟨n + 1, hn⟩ b r k _ _
          (by show 512 * 0 + k.val = 512 * ((n + 1) % 8) + k.val; omega)
          (by show 256 * ((n + 1) / 8 % 8) + r.val = 256 * ((n + 1) / 8) + r.val; omega))
        (fun b r => (Body.pay1_apply _).trans (Cert.Kde.prefixSum_zero _ _ b _).symm) b r
    · have hprev : ∀ b r, (outsAt0 m c n (Nat.lt_of_succ_lt hn)).2 (ix2 b r)
          = prefixSum (sarr m c) (larr m c) ((n + 1) % 8) b (rowOf (n + 1) r) := fun b r => by
        rw [ih b r, show n % 8 + 1 = (n + 1) % 8 by omega,
          show rowOf n r = rowOf (n + 1) r from Fin.ext (by show 256 * (n / 8 % 8) + r.val = 256 * ((n + 1) / 8 % 8) + r.val; omega)]
      have hw : ∀ b r k, Body.blockWeight (lblk m c ⟨n + 1, hn⟩) (sblk m c ⟨n + 1, hn⟩) b r k
          = weight (sarr m c) (larr m c) b ⟨512 * ((n + 1) % 8) + k.val, by have := k.isLt; omega⟩ (rowOf (n + 1) r) :=
        fun b r k => blockWeight_eq m c ⟨n + 1, hn⟩ b r k _ _ rfl
          (by show 256 * ((n + 1) / 8 % 8) + r.val = 256 * ((n + 1) / 8) + r.val; omega)
      by_cases h1 : (n + 1) % 8 = 7
      · have e := accAt_last m c ⟨n + 1, hn⟩ h0 h1
        refine (congrFun e (ix2 b r)).trans ?_
        exact step (sarr m c) (larr m c) (lblk m c ⟨n + 1, hn⟩) (sblk m c ⟨n + 1, hn⟩) _ ((n + 1) % 8) ((n + 1) % 8 + 1)
          (by omega) rfl (rowOf (n + 1)) hw hprev b r
      · have e := accAt_mid m c ⟨n + 1, hn⟩ h0 h1
        refine (congrFun e (ix2 b r)).trans ?_
        exact step (sarr m c) (larr m c) (lblk m c ⟨n + 1, hn⟩) (sblk m c ⟨n + 1, hn⟩) _ ((n + 1) % 8) ((n + 1) % 8 + 1)
          (by omega) rfl (rowOf (n + 1)) hw hprev b r

end Cert.KernelIdeal.Accum

end
-- ==== Proof.Tail.lean ====
/-
  The host lines after the kernel, as one function of the kernel's result array.

  They transpose the `[2, 2048]` array of densities, sum it along the locations, repeat that sum along the
  locations again, divide, and add a leading unit axis: at `(0, l, b)` the result is the array's entry at `(b, l)`
  divided by the sum of row `b`.
-/
import proofs.«139698_j22952305230422_1_alg».proof.Proof.Gen.KernelIdeal
import proofs.«139698_j22952305230422_1_alg».proof.Proof.Density
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tail

open Cert.KernelIdeal Cert.KernelIdeal.Facts₀
open Idealize.ShloMosaic Idealize.ShloMosaic.ValueIdx

/-- The seven host operations after the kernel, composed. -/
def normalise (X : FVec Ideal S2x2048 .f32) : FVec Ideal S1x2048x2 .f32 :=
  broadcastInDim S1x2048x2 ![1, 2] bcast_S2048x2_S1x2048x2_1_2
    (Host.divf (F := Ideal) (transpose S2048x2 [1, 0] X transposes_S2x2048_S2048x2_1_0)
      (broadcastInDim S2048x2 ![0, 1] bcast_S1x2_S2048x2_0_1
        (broadcastInDim S1x2 ![1] bcast_S2_S1x2_1
          (Host.reduceAdd (F := Ideal) (transpose S2048x2 [1, 0] X transposes_S2x2048_S2048x2_1_0)
            (constant (F := Ideal) S_ .f32 0x00000000#32) reducesTo_S2048x2_S2_d0 h_S_))))

/-- The host's sum along the locations, from zero, at batch `b`. -/
theorem colsum_apply (Y : FVec Ideal S2048x2 .f32) (b : Fin 2) :
    Host.reduceAdd (F := Ideal) Y (constant (F := Ideal) S_ .f32 0x00000000#32) reducesTo_S2048x2_S2_d0 h_S_ (ix1 b)
      = ∑ l : Fin 2048, Y (ix2 l b) := by
  simp only [Host.reduceAdd, Ideal.hostReduceAdd_def]
  rw [Ideal.hostReduceAdd_single reducesTo_S2048x2_S2_d0 (by decide)]
  show Ideal.ofBits .f32 0x00000000#32 + _ = _
  rw [Ideal.ofBits_zero_f32, zero_add]
  exact Finset.sum_congr rfl fun k _ => congrArg Y (funext fun a => Fin.ext (by match a with | ⟨0, _⟩ => rfl | ⟨1, _⟩ => rfl))

/-- The composed host lines at `(z, l, b)`: the entry at `(b, l)` over the sum of row `b`. -/
theorem normalise_apply (X : FVec Ideal S2x2048 .f32) (z : Fin 1) (l : Fin 2048) (b : Fin 2) :
    normalise X (ix3 z l b) = Ideal.div (X (ix2 b l)) (∑ l' : Fin 2048, X (ix2 b l')) := by
  unfold normalise
  refine (broadcastInDim_apply _ bcast_S2048x2_S1x2048x2_1_2 _ (ix3 z l b) (ix2 l b) (fun a => match a with
    | ⟨0, _⟩ => by show l.val = if (2048 : ℕ) = 1 then 0 else l.val; rw [if_neg (by decide)]
    | ⟨1, _⟩ => by show b.val = if (2 : ℕ) = 1 then 0 else b.val; rw [if_neg (by decide)])).trans ?_
  show Ideal.div (transpose S2048x2 [1, 0] X transposes_S2x2048_S2048x2_1_0 (ix2 l b)) _ = _
  rw [transpose_ix2_apply]
  refine congrArg (Ideal.div (X (ix2 b l))) ?_
  refine (broadcastInDim_apply _ bcast_S1x2_S2048x2_0_1 _ (ix2 l b) (ix2 (0 : Fin 1) b) (fun a => match a with
    | ⟨0, _⟩ => by show (0 : ℕ) = if (1 : ℕ) = 1 then 0 else l.val; rw [if_pos rfl]
    | ⟨1, _⟩ => by show b.val = if (2 : ℕ) = 1 then 0 else b.val; rw [if_neg (by decide)])).trans ?_
  refine (broadcastInDim_apply _ bcast_S2_S1x2_1 _ (ix2 (0 : Fin 1) b) (ix1 b) (fun a => match a with
    | ⟨0, _⟩ => by show b.val = if (2 : ℕ) = 1 then 0 else b.val; rw [if_neg (by decide)])).trans ?_
  rw [colsum_apply]
  exact Finset.sum_congr rfl fun l' _ => transpose_ix2_apply X _ l' b

/-- Applied to the array of densities, the host lines give the normalised density. -/
theorem normalise_density (s : Cert.Kde.SSmp.Idx → EReal) (loc : Cert.Kde.SLoc.Idx → EReal) :
    normalise (fun i => Cert.Kde.density s loc (i 0) (i 1)) = Cert.Kde.pdf s loc := by
  funext j
  obtain ⟨z, l, b, rfl⟩ : ∃ (z : Fin 1) (l : Fin 2048) (b : Fin 2), j = ix3 z l b := ⟨j 0, j 1, j 2, eq_ix3 j⟩
  rw [normalise_apply]
  rfl

end Cert.KernelIdeal.Tail

end
-- ==== Proof.Final.lean ====
/-
  The kernel's run, read: its result is the normalised density of its arguments.

  The output block is written back once per row of the grid, after the row's last step, when the accumulator has
  taken all eight blocks of samples: block `q` of the `[2, 2048]` result array holds the densities at the locations
  `256 · q + r`. The eight blocks tile the array, so after the kernel it holds the density everywhere, and the host
  lines after the kernel normalise it.
-/
import proofs.«139698_j22952305230422_1_alg».proof.Proof.Accum
import proofs.«139698_j22952305230422_1_alg».proof.Proof.Tail
import Idealize.ShloMosaic.Lib.StableHlo.Run

noncomputable section

namespace Cert.KernelIdeal.Final

open Cert.KernelIdeal Cert.KernelIdeal.Gen
open Idealize.ShloMosaic Idealize.ShloMosaic.TcCoe Idealize.SL.Sem Idealize.ShloMosaic.ValueIdx
open Idealize.ShloMosaic.Pipeline (Dat)
open Cert.Kde (weight prefixSum density)
open Cert.KernelIdeal.Accum (sarr larr rowOf)

variable (m : (ℓ : Loc nD τ sig) → Buf (Elt Ideal) ℓ) (ρ : Dev nD → PrngReg)

/-- The array of densities of the arguments as the region finds them. -/
abbrev densArr (c : Dev nD) : FVec Ideal S2x2048 .f32 := fun i => density (sarr m c) (larr m c) (i 0) (i 1)

/-- After the last step of a row the output block holds the densities of the row's locations. -/
theorem out_entry (c : Dev nD) (t : Fin cfg0.N) (h7 : t.val % 8 = 7) (b : Fin 2) (r : Fin 256) :
    (outsAt0 m c t.val t.isLt).1 (ix2 b r) = density (sarr m c) (larr m c) b (rowOf t.val r) := by
  have h0 : ¬t.val % 8 = 0 := by omega
  rw [Accum.outAt_last m c t h0 h7, Accum.acc_eq m c t.val t.isLt b r, h7]
  exact Cert.Kde.prefixSum_eight _ _ b _

/-- What a flushing step writes back is its block of the array of densities. -/
theorem flushed_eq (c : Dev nD) (t : Fin cfg0.N) (hf : (cfg0.win 2).flush t = true) :
    (dats m 0 c).flushed 2 t = ((cfg0.win 2).blk t).view.read (Elt Ideal) (densArr m c) := by
  have h7 : t.val % 8 = 7 := (flush0_2 t).mp hf
  have hN : t.val < 64 := lt_of_lt_of_eq t.isLt (show cfg0.N = 64 from N_0)
  obtain ⟨-, -, -, -, -, e5, e6⟩ := Accum.idx_facts t
  show (cfg0.win 2).cut (grid0.coords t) ((dats m 0 c).after 2 t) = _
  rw [after0_2]
  have key : ∀ y : S2x256.Idx,
      (outsAt0 m c t.val t.isLt).1 y = densArr m c (((cfg0.win 2).blk t).view.emb y) := fun y => by
    obtain ⟨b, r, rfl⟩ : ∃ (b : Fin 2) (r : Fin 256), y = ix2 b r := ⟨y 0, y 1, eq_ix2 y⟩
    rw [out_entry m c t h7 b r]
    show density (sarr m c) (larr m c) b (rowOf t.val r)
      = density (sarr m c) (larr m c) ((((cfg0.win 2).blk t).view.emb (ix2 b r)) 0) ((((cfg0.win 2).blk t).view.emb (ix2 b r)) 1)
    have hb : (((cfg0.win 2).blk t).view.emb (ix2 b r)) 0 = b :=
      Fin.ext (by show win0_2.index t (0 : Fin 2) * 2 + 1 * b.val = b.val; omega)
    have hr : (((cfg0.win 2).blk t).view.emb (ix2 b r)) 1 = rowOf t.val r :=
      Fin.ext (by show win0_2.index t (1 : Fin 2) * 256 + 1 * r.val = 256 * (t.val / 8 % 8) + r.val; omega)
    rw [hb, hr]
  funext j
  exact key j

/-- An index of the result array is in step `t`'s block iff each coordinate is in the block's range. -/
theorem mem_blk (t : Fin cfg0.N) (i : S2x2048.Idx) :
    i ∈ ((cfg0.win 2).blk t).view.set ↔ ∀ a : Fin 2, win0_2.index t a * S2x256.size a ≤ (i a).val ∧ (i a).val < win0_2.index t a * S2x256.size a + S2x256.size a := by
  show i ∈ ((View.whole main_v0).slice (win0_2.rect t)).set ↔ _
  rw [View.set_slice_whole, Rect.mem_set_unit]
  exact Iff.rfl

/-- Every index of the result array is in the block written back after the last step of its row. -/
theorem cover (i : S2x2048.Idx) :
    ∃ t : Fin cfg0.N, (cfg0.win 2).flush t = true ∧ i ∈ ((cfg0.win 2).blk t).view.set := by
  have hi0 : (i 0).val < 2 := idx2_lt0 i
  have hi1 : (i 1).val < 2048 := idx2_lt1 i
  obtain ⟨t, ht⟩ : ∃ t : Fin cfg0.N, t.val = 8 * ((i 1).val / 256) + 7 :=
    ⟨⟨8 * ((i 1).val / 256) + 7, by rw [show cfg0.N = 64 from N_0]; omega⟩, rfl⟩
  obtain ⟨-, -, -, -, -, e5, e6⟩ := Accum.idx_facts t
  refine ⟨t, (flush0_2 t).mpr (by omega), ?_⟩
  rw [mem_blk]
  intro a
  match a with
  | ⟨0, _⟩ => show win0_2.index t (0 : Fin 2) * 2 ≤ (i 0).val ∧ (i 0).val < win0_2.index t (0 : Fin 2) * 2 + 2; omega
  | ⟨1, _⟩ => show win0_2.index t (1 : Fin 2) * 256 ≤ (i 1).val ∧ (i 1).val < win0_2.index t (1 : Fin 2) * 256 + 256; omega

/-- So the result array ends holding the density everywhere. -/
theorem final_v0 (c : Dev nD) : (dats m 0 c).arrAt 2 cfg0.N = densArr m c :=
  (dats m 0 c).arrAt_eq_of_cover 2 (densArr m c) (flushed_eq m c) (cover)

/-- The last buffer the host lines write holds the normalised density of the arguments. -/
theorem tail_eq (c : Dev nD) :
    Pipeline.afterTail₀ cfgs (dats m) 0 (V0 m) [hostOps1] c main_v6
      = Cert.Kde.pdf (m ((c : Thread nD τ).loc main_arg0)) (m ((c : Thread nD τ).loc main_arg1)) := by
  unfold Pipeline.afterTail₀
  show StableHlo.after hostOps1 _ (Proc.devRef .tc main_v6) = _
  after_results
  have e : Pipeline.withArrays (cfgs 0).spec c (V0 m c) (fun w => (dats m 0 c).arrAt w (cfgs 0).N) (Proc.devRef .tc main_v0)
      = densArr m c :=
    (Pipeline.withArrays_arr spec0 launch0.win.arr_inj c _ _ 2).trans (final_v0 m c)
  exact (congrArg Tail.normalise e).trans (Tail.normalise_density (sarr m c) (larr m c))

/-- The last buffer is none of the kernel's three arrays, so the run's post speaks of it through the host lines. -/
theorem v6_rest : main_v6 ∈ Pipeline.restRefs sig (cfgs 0).spec :=
  Pipeline.mem_restRefs_of main_v6 rfl (fun w => by fin_cases w <;> decide)

/-- THE RUN, READ: every weakly fair execution of the kernel's program terminates with the result buffer at the
    normalised density of the arguments and the arguments unchanged. -/
theorem run : θ_run defs (onTc (τ := τ) (main (F := Ideal))) ⟨m, fun _ => 0, ρ⟩ fun r => ∀ c : Dev nD,
      r.2.mem ((c.tc : Thread nD τ).loc main_v6)
        = Cert.Kde.pdf (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).2 main_v6 v6_rest).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Final

end
-- ==== Proof.lean ====
/-
  A Gaussian kernel density estimate, normalised over the locations: the tiled kernel against the plain reference.

  For samples `s : [2, 4096, 6]` and locations `loc : [2048, 6]` both programs return, at `(0, l, b)`,
      D(b, l) / ∑ₗ' D(b, l'),     D(b, l) = ∑ₙ exp (-2 · ∑_d (s[b,n,d] - loc[l,d])²).
  The kernel walks a grid of 8 blocks of 256 locations by 8 blocks of 512 samples, keeps `D` for the current block of
  locations in an accumulator that it zeroes at the first block of samples and copies out after the last, writes
  `exp (‖loc - s‖² · (-2))`, and leaves the normalisation to the host lines after it. The reference computes
  `exp (-‖s - loc‖² / (1/2))` over all samples at once. On the extended reals the two agree without any use of the
  inputs' finiteness: a square does not see the order of a difference (Scalars.lean), a negation followed by a
  quotient by `1/2` is a product with `-2` (Scalars.lean), and a sum over 4096 samples is the last of its prefix sums
  over blocks of 512 (Density.lean). Body.lean reads the kernel body's arithmetic at an index, Pieces.lean what a
  grid step leaves in the accumulator and the output block, Accum.lean proves by induction over the grid that the
  accumulator holds the prefix sums, Final.lean that the result array ends at `D` and the host lines normalise it
  (Tail.lean), and RefValue.lean that the reference's stages compose to the same function. The three frames are the
  generated ones (the reference's is its generated run with the result dropped); the idealization rewrote nothing.
-/
import proofs.«139698_j22952305230422_1_alg».proof.Defs
import proofs.«139698_j22952305230422_1_alg».proof.Proof.Gen.Kernel
import proofs.«139698_j22952305230422_1_alg».proof.Proof.Gen.Kernel.Frame
import proofs.«139698_j22952305230422_1_alg».proof.Proof.Gen.KernelIdeal
import proofs.«139698_j22952305230422_1_alg».proof.Proof.Gen.KernelIdeal.Frame
import proofs.«139698_j22952305230422_1_alg».proof.Proof.Gen.ReferenceIdeal
import proofs.«139698_j22952305230422_1_alg».proof.Proof.Gen.Pre_finite_inputs
import proofs.«139698_j22952305230422_1_alg».proof.Proof.Gen.ReferenceIdeal.Run
import proofs.«139698_j22952305230422_1_alg».proof.Proof.Gen.ReferenceIdeal.Read
import proofs.«139698_j22952305230422_1_alg».proof.Proof.RefValue
import proofs.«139698_j22952305230422_1_alg».proof.Proof.Final
import Idealize.ShloMosaic.Adequacy
import Idealize.ShloMosaic.Init

noncomputable section

namespace Cert.Proof

open Idealize.ShloMosaic Idealize.SL.Sem

/-- The reference runs and keeps its arguments: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments both programs end with the normalised density of the arguments. -/
theorem algebraic : Cert.algebraic_KernelIdeal_ReferenceIdeal := by
  intro m ρ m' ρ' _ hagree
  refine ⟨fun c => Cert.Kde.pdf (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    frame_reference,
    trivial,
    algebraic⟩

end Cert.Proof

end
